-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_

variable [Facts]

def fn {F : FTy → Type} [FloatOps F] (main_arg0 : FVec F S10000x128 .f32) (main_arg1 : FVec F S10000x10000 .f32) (main_arg2 : FVec F S10000x10000 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S10000x256 : Shape := ⟨2, ![10000, 256]⟩
abbrev S200x10000 : Shape := ⟨2, ![200, 10000]⟩
abbrev S200x256 : Shape := ⟨2, ![200, 256]⟩
abbrev S200x128 : Shape := ⟨2, ![200, 128]⟩

abbrev nBuf : Space → Nat
  | .hbm => 4
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S10000x256, .f32⟩
  | .local _ .vmem, ⟨0, _⟩ => ⟨S10000x128, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x256, .f32⟩
  | .local _ .vmem, ⟨6, _⟩ => ⟨S200x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S200x10000_S200x10000_0_0 : ∀ a, (![0, 0] : Fin 2 → Nat) a + S200x10000.size a ≤ S200x10000.size a
  h_S200x10000 : 0 < S200x10000.numel
  inb_S200x256_S200x128_0_0 : ∀ a, (![0, 0] : Fin 2 → Nat) a + S200x128.size a ≤ S200x256.size a
  h_S200x128 : 0 < S200x128.numel
  inb_S200x256_S200x128_0_128 : ∀ a, (![0, 128] : Fin 2 → Nat) a + S200x128.size a ≤ S200x256.size a
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x256.size a ≤ S10000x256.size a
  hwx0_3 : ∀ i : grid0.Coords, EltTy.bits .f32 = 32 ∨ (Rect.block (s := S10000x256) S200x256.size (cc0_transform_3 i) (hinb0_3 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S200x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S10000x256 : Shape := ⟨2, ![10000, 256]⟩

abbrev nBuf : Space → Nat
  | .hbm => 6
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S10000x128, .f32⟩
  | .hbm, ⟨4, _⟩ => ⟨S10000x128, .f32⟩
  | .hbm, ⟨5, _⟩ => ⟨S10000x256, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.LibSideBySide.lean ====
/-
  Two matrix products with a common right factor, laid side by side.

  Over the extended reals, entry (a, b) of the product of an r×k matrix A with a k×n matrix B is the sum over the
  contracted coordinate c of A(a, c) · B(c, b). No rounding and no order of summation is left in it: addition on the
  extended reals is commutative and associative, so the sum is a plain finite sum and nothing here asks that an entry be
  finite.

  A kernel forms such a product on the matrix unit, accumulating into a zero block; the host forms it by a
  dot_general with no accumulator. At the ideal values both are that sum (`kernelProduct_apply`, `hostProduct_apply`),
  whatever float formats the factors were narrowed to on the way, a change of format being the identity there.

  `sideBySide A₁ A₂ B` is the r×w array whose columns 0 … n−1 hold A₁·B and whose columns n … 2n−1 hold A₂·B: what
  concatenating the two products along the column axis gives (`concatenate_products`), and equally what writing one product
  into the left half of a block and the other into the right half gives. Row p of either product depends on row p of its left
  factor alone, so a block of rows of the side-by-side array is the side-by-side array of the blocks of rows (`sideBySide_rows`).
-/
import Idealize.ShloMosaic.Lib.StackMember

noncomputable section

namespace SideBySide

open Idealize.ShloMosaic Idealize.ShloMosaic.ValueIdx

variable {r k n w : Nat}

/-- Entry (a, b) of the product A·B of an r×k and a k×n matrix of extended reals. -/
def entry (A : (⟨2, ![r, k]⟩ : Shape).Idx → EReal) (B : (⟨2, ![k, n]⟩ : Shape).Idx → EReal) (a : Fin r) (b : Fin n) : EReal :=
  ∑ c : Fin k, A (ix2 a c) * B (ix2 c b)

/-- The host's product of an r×k by a k×n matrix (rows by columns, one contracted axis), read at (a, b), is that entry. The
    dimension numbers are given as a record equal to the plain one, so that a program's own record fits. -/
theorem hostProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    Host.dotGeneral d prec A B (ix2 a b) = entry A B a b := by
  subst hd
  exact StackMember.dotGeneral_plain_apply prec A B a b

/-- The matrix unit's product accumulated into a zero block, read at (a, b), is the same entry: the zero contributes
    nothing to the sum. -/
theorem kernelProduct_apply {φ₁ φ₂ : FTy} (d : DotDims ⟨2, ![r, k]⟩ ⟨2, ![k, n]⟩ ⟨2, ![r, n]⟩) (hd : d = DotDims.plain r k n)
    (prec : Option ContractPrecision) (A : FVec Ideal ⟨2, ![r, k]⟩ φ₁) (B : FVec Ideal ⟨2, ![k, n]⟩ φ₂) (a : Fin r) (b : Fin n) :
    matmul d prec A B (constant (F := Ideal) ⟨2, ![r, n]⟩ .f32 0x00000000#32) (ix2 a b) = entry A B a b := by
  rw [matmul_zero_eq_dotGeneral]
  exact hostProduct_apply d hd prec A B a b

/-- The r×w array with A₁·B in columns 0 … n−1 and A₂·B in columns n … 2n−1 (zero in any column past 2n−1, of which an
    array of width 2n has none). -/
def sideBySide (A₁ A₂ : (⟨2, ![r, k]⟩ : Shape).Idx → EReal) (B : (⟨2, ![k, n]⟩ : Shape).Idx → EReal) :
    (⟨2, ![r, w]⟩ : Shape).Idx → EReal := fun j =>
  if h : (j 1).val < n then entry A₁ B (j 0) ⟨(j 1).val, h⟩
  else if h' : (j 1).val - n < n then entry A₂ B (j 0) ⟨(j 1).val - n, h'⟩ else 0

/-- A column of the left half reads the first product. -/
theorem sideBySide_left (A₁ A₂ : (⟨2, ![r, k]⟩ : Shape).Idx → EReal) (B : (⟨2, ![k, n]⟩ : Shape).Idx → EReal)
    (a : Fin r) (b : Fin w) (hb : b.val < n) :
    sideBySide (w := w) A₁ A₂ B (ix2 a b) = entry A₁ B a ⟨b.val, hb⟩ := by
  show (if h : b.val < n then entry A₁ B a ⟨b.val, h⟩
    else if h' : b.val - n < n then entry A₂ B a ⟨b.val - n, h'⟩ else 0) = _
  rw [dif_pos hb]

/-- A column of the right half reads the second product, n columns to the left. -/
theorem sideBySide_right (A₁ A₂ : (⟨2, ![r, k]⟩ : Shape).Idx → EReal) (B : (⟨2, ![k, n]⟩ : Shape).Idx → EReal)
    (a : Fin r) (b : Fin w) (hb : n ≤ b.val) (hb' : b.val - n < n) :
    sideBySide (w := w) A₁ A₂ B (ix2 a b) = entry A₂ B a ⟨b.val - n, hb'⟩ := by
  show (if h : b.val < n then entry A₁ B a ⟨b.val, h⟩
    else if h' : b.val - n < n then entry A₂ B a ⟨b.val - n, h'⟩ else 0) = _
  rw [dif_neg (Nat.not_lt.2 hb), dif_pos hb']

/-- A column past both halves reads zero. -/
theorem sideBySide_beyond (A₁ A₂ : (⟨2, ![r, k]⟩ : Shape).Idx → EReal) (B : (⟨2, ![k, n]⟩ : Shape).Idx → EReal)
    (a : Fin r) (b : Fin w) (hb : ¬ b.val < n) (hb' : ¬ b.val - n < n) :
    sideBySide (w := w) A₁ A₂ B (ix2 a b) = 0 := by
  show (if h : b.val < n then entry A₁ B a ⟨b.val, h⟩
    else if h' : b.val - n < n then entry A₂ B a ⟨b.val - n, h'⟩ else 0) = _
  rw [dif_neg hb, dif_neg hb']

/-- A block of rows of the side-by-side array is the side-by-side array of that block of rows of each left factor: row p
    of a product depends on row p of its left factor only. Here a₁ and a₂ are rows off … off + r − 1 of A₁ and A₂. -/
theorem sideBySide_rows {R : Nat} (A₁ A₂ : (⟨2, ![R, k]⟩ : Shape).Idx → EReal) (B : (⟨2, ![k, n]⟩ : Shape).Idx → EReal)
    (a₁ a₂ : (⟨2, ![r, k]⟩ : Shape).Idx → EReal) (off : Nat) (hoff : off + r ≤ R)
    (h₁ : ∀ (p : Fin r) (c : Fin k), a₁ (ix2 p c) = A₁ (ix2 ⟨off + p.val, by have := p.isLt; omega⟩ c))
    (h₂ : ∀ (p : Fin r) (c : Fin k), a₂ (ix2 p c) = A₂ (ix2 ⟨off + p.val, by have := p.isLt; omega⟩ c))
    (p : Fin r) (b : Fin w) :
    sideBySide (w := w) a₁ a₂ B (ix2 p b)
      = sideBySide (w := w) A₁ A₂ B (ix2 ⟨off + p.val, by have := p.isLt; omega⟩ b) := by
  have e₁ : ∀ q : Fin n, entry a₁ B p q = entry A₁ B ⟨off + p.val, by have := p.isLt; omega⟩ q := fun q => by
    unfold entry; exact Finset.sum_congr rfl fun c _ => by rw [h₁]
  have e₂ : ∀ q : Fin n, entry a₂ B p q = entry A₂ B ⟨off + p.val, by have := p.isLt; omega⟩ q := fun q => by
    unfold entry; exact Finset.sum_congr rfl fun c _ => by rw [h₂]
  by_cases hb : b.val < n
  · rw [sideBySide_left _ _ _ _ _ hb, sideBySide_left _ _ _ _ _ hb, e₁]
  · by_cases hb' : b.val - n < n
    · rw [sideBySide_right _ _ _ _ _ (Nat.not_lt.1 hb) hb', sideBySide_right _ _ _ _ _ (Nat.not_lt.1 hb) hb', e₂]
    · rw [sideBySide_beyond _ _ _ _ _ hb hb', sideBySide_beyond _ _ _ _ _ hb hb']

/-- The host's two products concatenated along the column axis are the two products side by side. -/
theorem concatenate_products {φ₁ φ₂ : FTy} (d : DotDims ⟨2, ![r, k]⟩ ⟨2, ![k, n]⟩ ⟨2, ![r, n]⟩) (hd : d = DotDims.plain r k n)
    (prec : Option ContractPrecision) (A₁ A₂ : FVec Ideal ⟨2, ![r, k]⟩ φ₁) (B : FVec Ideal ⟨2, ![k, n]⟩ φ₂)
    (hw : w = n + n)
    (h : Shape.Concatenates [(⟨2, ![r, n]⟩ : Shape), (⟨2, ![r, n]⟩ : Shape)] (⟨2, ![r, w]⟩ : Shape) 1) :
    concatenate (⟨2, ![r, w]⟩ : Shape) 1
        [⟨(⟨2, ![r, n]⟩ : Shape), Host.dotGeneral d prec A₁ B⟩, ⟨(⟨2, ![r, n]⟩ : Shape), Host.dotGeneral d prec A₂ B⟩] h
      = sideBySide (w := w) A₁ A₂ B := by
  funext j
  obtain ⟨a, b, rfl⟩ : ∃ (a : Fin r) (b : Fin w), j = ix2 a b := ⟨j 0, j 1, eq_ix2 j⟩
  by_cases hb : b.val < n
  · rw [sideBySide_left A₁ A₂ B a b hb, ← hostProduct_apply d hd prec A₁ B a ⟨b.val, hb⟩]
    exact concatenate_pair_apply_left 1 _ _ h (ix2 a b) rfl (ix2 a ⟨b.val, hb⟩)
      (fun q => by match q with | ⟨0, _⟩ => rfl | ⟨1, _⟩ => rfl)
  · have hb1 : n ≤ b.val := Nat.not_lt.1 hb
    have hb2 : b.val - n < n := by have := b.isLt; omega
    rw [sideBySide_right A₁ A₂ B a b hb1 hb2, ← hostProduct_apply d hd prec A₂ B a ⟨b.val - n, hb2⟩]
    exact concatenate_pair_apply_right 1 _ _ h (ix2 a b) rfl rfl (ix2 a ⟨b.val - n, hb2⟩)
      (fun q hq => by
        match q with
        | ⟨0, _⟩ => rfl
        | ⟨1, _⟩ => exact absurd rfl hq)
      (by show (b.val - n) + n = b.val; omega)

end SideBySide

end
-- ==== Proof.Block.lean ====
/-
  What one grid step leaves in its 200×256 output block.

  The body reads the whole 10000×128 feature matrix X and a 200-row block of each adjacency matrix, A₁ and A₂ (each
  200×10000), narrows all three to bf16 — the identity on the extended reals —, multiplies each adjacency block by X on the
  matrix unit into a zero accumulator, and stores the first product in columns 0 … 127 of the output block and the second in
  columns 128 … 255. The two stores tile the block, so at every index the block holds the entry of the product whose half
  the index lies in: the block is the two products side by side.
-/
import proofs.«114327_g33217277067915_cont_8to1_b_760_15_alg».proof.Proof.Gen.KernelIdeal.Frame
import proofs.«114327_g33217277067915_cont_8to1_b_760_15_alg».proof.Proof.LibSideBySide

noncomputable section

namespace Cert.KernelIdeal.Block

open Cert.KernelIdeal Cert.KernelIdeal.Gen Idealize.ShloMosaic Idealize.ShloMosaic.ValueIdx SideBySide

/-- The body's dimension numbers are the plain ones: rows of the left factor by columns of the right. -/
theorem dims_plain : dot_S200x10000_S10000x128_S200x128_1_0_0_1_n_n = DotDims.plain 200 10000 128 := rfl

theorem zeros2 : (![0, 0] : Fin 2 → Nat) = fun _ => 0 := funext fun a => by fin_cases a <;> rfl

/-- The value stored in the left half, at row p and column q of the half: entry (p, q) of A₁·X. -/
theorem leftHalf_apply (x0 : Vec Ideal S10000x128 .f32) (x1 : Vec Ideal S200x10000 .f32) (p : Fin 200) (q : Fin 128) :
    k0_pay2 (F := Ideal) x0 x1 (ix2 p q) = entry x1 x0 p q := by
  unfold k0_pay2 k0_pay1
  exact kernelProduct_apply _ dims_plain none (truncf .bf16 x1 bitsLt_bf16_f32) (truncf .bf16 x0 bitsLt_bf16_f32) p q

/-- The value stored in the right half, at row p and column q of the half: entry (p, q) of A₂·X. -/
theorem rightHalf_apply (x0 : Vec Ideal S10000x128 .f32) (x2 : Vec Ideal S200x10000 .f32) (p : Fin 200) (q : Fin 128) :
    k0_pay3 (F := Ideal) x0 x2 (ix2 p q) = entry x2 x0 p q := by
  unfold k0_pay3 k0_pay1
  exact kernelProduct_apply _ dims_plain none (truncf .bf16 x2 bitsLt_bf16_f32) (truncf .bf16 x0 bitsLt_bf16_f32) p q

/-- The left store's rectangle puts (p, q) of the half at (p, q) of the block. -/
theorem emb_left (p : Fin 200) (q : Fin 128) :
    r0_2.emb (ix2 p q) = ix2 p (⟨q.val, by have := q.isLt; omega⟩ : Fin 256) := by
  funext ax; apply Fin.ext
  match ax with
  | ⟨0, _⟩ => show 0 + 1 * p.val = p.val; omega
  | ⟨1, _⟩ => show 0 + 1 * q.val = q.val; omega

/-- The right store's rectangle puts (p, q) of the half at (p, 128 + q) of the block. -/
theorem emb_right (p : Fin 200) (q : Fin 128) :
    r0_3.emb (ix2 p q) = ix2 p (⟨128 + q.val, by have := q.isLt; omega⟩ : Fin 256) := by
  funext ax; apply Fin.ext
  match ax with
  | ⟨0, _⟩ => show 0 + 1 * p.val = p.val; omega
  | ⟨1, _⟩ => show 128 + 1 * q.val = 128 + q.val; omega

/-- THE BLOCK after the body: A₁·X and A₂·X side by side, for the blocks A₁, A₂ and the matrix X the body loaded. -/
theorem block_eq (x0 : Vec Ideal S10000x128 .f32) (x1 x2 : Vec Ideal S200x10000 .f32) :
    out0_3 (F := Ideal) x0 x1 x2 = sideBySide (w := 256) x1 x2 x0 := by
  funext y
  unfold out0_3
  rw [View.ld_unit_zero (S := S10000x128) zeros2, View.ld_unit_zero (S := S200x10000) zeros2,
    View.ld_unit_zero (S := S200x10000) zeros2]
  refine View.canon_apply_of_pieces (Val := Elt Ideal) (S := S200x256) (e := .f32) (sideBySide (w := 256) x1 x2 x0) _ ?_ y
    (cover0_3 _ _ y)
  intro pc hpc x
  rcases List.mem_cons.mp hpc with rfl | hpc
  · obtain ⟨p, q, rfl⟩ : ∃ (p : Fin 200) (q : Fin 128), x = ix2 p q := ⟨x 0, x 1, eq_ix2 x⟩
    show k0_pay3 (F := Ideal) x0 x2 (ix2 p q) = sideBySide (w := 256) x1 x2 x0 (r0_3.emb (ix2 p q))
    rw [emb_right, rightHalf_apply,
      sideBySide_right x1 x2 x0 p ⟨128 + q.val, by have := q.isLt; omega⟩ (by show 128 ≤ 128 + q.val; omega)
        (by show 128 + q.val - 128 < 128; have := q.isLt; omega)]
    exact congrArg (entry x2 x0 p) (Fin.ext (by show q.val = 128 + q.val - 128; omega))
  · rcases List.mem_singleton.mp hpc with rfl
    obtain ⟨p, q, rfl⟩ : ∃ (p : Fin 200) (q : Fin 128), x = ix2 p q := ⟨x 0, x 1, eq_ix2 x⟩
    show k0_pay2 (F := Ideal) x0 x1 (ix2 p q) = sideBySide (w := 256) x1 x2 x0 (r0_2.emb (ix2 p q))
    rw [emb_left, leftHalf_apply,
      sideBySide_left x1 x2 x0 p ⟨q.val, by have := q.isLt; omega⟩ (by show q.val < 128; exact q.isLt)]

end Cert.KernelIdeal.Block

end
-- ==== Proof.Whole.lean ====
/-
  From the blocks to the whole output array.

  The grid has 50 steps. At step t the pipeline hands the body the whole feature matrix X (its block index is (0, 0) at
  every step) and rows 200·t … 200·t + 199 of each adjacency matrix, and writes the body's 200×256 block back to rows
  200·t … 200·t + 199 of the 10000×256 output. The block is the two products of those row blocks with X side by side, and a
  block of rows of a product is the product of the block of rows, so what step t writes back is block t of ONE array: A₁·X
  and A₂·X side by side, for the full adjacency matrices. The 50 blocks tile the output (row i lies in block i / 200), so
  after the run the output array is that array.
-/
import proofs.«114327_g33217277067915_cont_8to1_b_760_15_alg».proof.Proof.Gen.KernelIdeal.Value
import proofs.«114327_g33217277067915_cont_8to1_b_760_15_alg».proof.Proof.Block

noncomputable section

namespace Cert.KernelIdeal.Whole

open Cert.KernelIdeal Cert.KernelIdeal.Gen Idealize.ShloMosaic Idealize.ShloMosaic.TcCoe Idealize.SL.Sem
open Idealize.ShloMosaic.ValueIdx SideBySide
open Idealize.ShloMosaic.Pipeline (Dat)

variable (m : (ℓ : Loc nD τ sig) → Buf (Elt Ideal) ℓ) (ρ : Dev nD → PrngReg)

/-- The block index of each window at each of the 50 steps: X always at (0, 0); both adjacency matrices and the output at
    (t, 0). -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem step_lt (t : Fin cfg0.N) : t.val < 50 := lt_of_lt_of_eq t.isLt N_0

/-- The three argument arrays as the region finds them, and the three input blocks at step t, each at its literal type. -/
abbrev X (c : Dev nD) : Vec Ideal S10000x128 .f32 := V m c main_arg0
abbrev A1 (c : Dev nD) : Vec Ideal S10000x10000 .f32 := V m c main_arg1
abbrev A2 (c : Dev nD) : Vec Ideal S10000x10000 .f32 := V m c main_arg2
abbrev xblk (c : Dev nD) (t : Fin cfg0.N) : Vec Ideal S10000x128 .f32 := iblk m c 0 t
abbrev a1blk (c : Dev nD) (t : Fin cfg0.N) : Vec Ideal S200x10000 .f32 := iblk m c 1 t
abbrev a2blk (c : Dev nD) (t : Fin cfg0.N) : Vec Ideal S200x10000 .f32 := iblk m c 2 t

/-- The feature matrix's block is the whole matrix at every step. -/
theorem xblk_eq (c : Dev nD) (t : Fin cfg0.N) : xblk m c t = X m c := by
  funext y
  obtain ⟨e0, e1, -⟩ := idx_facts t
  show V m c main_arg0 (((cfg0.win 0).blk t).view.emb y) = V m c main_arg0 y
  have h : ((cfg0.win 0).blk t).view.emb y = y := by
    funext a; apply Fin.ext
    match a with
    | ⟨0, _⟩ => show win0_0.index t (0 : Fin 2) * 10000 + 1 * (y 0).val = (y 0).val; omega
    | ⟨1, _⟩ => show win0_0.index t (1 : Fin 2) * 128 + 1 * (y 1).val = (y 1).val; omega
  rw [h]

/-- Row p of the first adjacency block at step t is row 200·t + p of the first adjacency matrix. -/
theorem a1blk_apply (c : Dev nD) (t : Fin cfg0.N) (p : Fin 200) (k : Fin 10000) :
    a1blk m c t (ix2 p k) = A1 m c (ix2 ⟨200 * t.val + p.val, by have := step_lt t; have := p.isLt; omega⟩ k) := by
  obtain ⟨-, -, e2, e3, -⟩ := idx_facts t
  show V m c main_arg1 (((cfg0.win 1).blk t).view.emb (ix2 p k)) = V m c main_arg1 (ix2 _ k)
  have h : ((cfg0.win 1).blk t).view.emb (ix2 p k)
      = ix2 (⟨200 * t.val + p.val, by have := step_lt t; have := p.isLt; omega⟩ : Fin 10000) k := by
    funext a; apply Fin.ext
    match a with
    | ⟨0, _⟩ => show win0_1.index t (0 : Fin 2) * 200 + 1 * p.val = 200 * t.val + p.val; omega
    | ⟨1, _⟩ => show win0_1.index t (1 : Fin 2) * 10000 + 1 * k.val = k.val; omega
  rw [h]

/-- Row p of the second adjacency block at step t is row 200·t + p of the second adjacency matrix. -/
theorem a2blk_apply (c : Dev nD) (t : Fin cfg0.N) (p : Fin 200) (k : Fin 10000) :
    a2blk m c t (ix2 p k) = A2 m c (ix2 ⟨200 * t.val + p.val, by have := step_lt t; have := p.isLt; omega⟩ k) := by
  obtain ⟨-, -, -, -, e4, e5, -⟩ := idx_facts t
  show V m c main_arg2 (((cfg0.win 2).blk t).view.emb (ix2 p k)) = V m c main_arg2 (ix2 _ k)
  have h : ((cfg0.win 2).blk t).view.emb (ix2 p k)
      = ix2 (⟨200 * t.val + p.val, by have := step_lt t; have := p.isLt; omega⟩ : Fin 10000) k := by
    funext a; apply Fin.ext
    match a with
    | ⟨0, _⟩ => show win0_2.index t (0 : Fin 2) * 200 + 1 * p.val = 200 * t.val + p.val; omega
    | ⟨1, _⟩ => show win0_2.index t (1 : Fin 2) * 10000 + 1 * k.val = k.val; omega
  rw [h]

/-- Entry (p, b) of the output block at step t sits at (200·t + p, b) of the output array. -/
theorem out_emb (t : Fin cfg0.N) (p : Fin 200) (b : Fin 256) :
    ((cfg0.win 3).blk t).view.emb (ix2 p b)
      = ix2 (⟨200 * t.val + p.val, by have := step_lt t; have := p.isLt; omega⟩ : Fin 10000) b := by
  obtain ⟨-, -, -, -, -, -, e6, e7⟩ := idx_facts t
  funext a; apply Fin.ext
  match a with
  | ⟨0, _⟩ => show win0_3.index t (0 : Fin 2) * 200 + 1 * p.val = 200 * t.val + p.val; omega
  | ⟨1, _⟩ => show win0_3.index t (1 : Fin 2) * 256 + 1 * b.val = b.val; omega

/-- WHAT STEP t WRITES BACK is block t of A₁·X and A₂·X side by side, over the full argument arrays. -/
theorem flushed_eq (c : Dev nD) (t : Fin cfg0.N) :
    (dats m 0 c).flushed 3 t
      = ((cfg0.win 3).blk t).view.read (Elt Ideal) (sideBySide (w := 256) (A1 m c) (A2 m c) (X m c)) := by
  rw [Value.flushed3]
  funext y
  obtain ⟨p, b, rfl⟩ : ∃ (p : Fin 200) (b : Fin 256), y = ix2 p b := ⟨y 0, y 1, eq_ix2 y⟩
  show out0_3 (xblk m c t) (a1blk m c t) (a2blk m c t) (ix2 p b)
    = sideBySide (w := 256) (A1 m c) (A2 m c) (X m c) (((cfg0.win 3).blk t).view.emb (ix2 p b))
  rw [Block.block_eq, xblk_eq, out_emb]
  exact sideBySide_rows (A1 m c) (A2 m c) (X m c) (a1blk m c t) (a2blk m c t) (200 * t.val)
    (by have := step_lt t; omega) (a1blk_apply m c t) (a2blk_apply m c t) p b

/-- An index of the output array is in step t's block iff each coordinate is in the block's range on its axis. -/
theorem mem_blk (t : Fin cfg0.N) (i : S10000x256.Idx) :
    i ∈ ((cfg0.win 3).blk t).view.set ↔ ∀ a : Fin 2, win0_3.index t a * S200x256.size a ≤ (i a).val
      ∧ (i a).val < win0_3.index t a * S200x256.size a + S200x256.size a := by
  show i ∈ ((View.whole main_v0).slice (win0_3.rect t)).set ↔ _
  rw [View.set_slice_whole, Rect.mem_set_unit]
  exact Iff.rfl

/-- Every index of the output array lies in some step's block: row i in the block of step i / 200. -/
theorem cover (i : S10000x256.Idx) :
    ∃ t : Fin cfg0.N, (cfg0.win 3).flush t = true ∧ i ∈ ((cfg0.win 3).blk t).view.set := by
  have hi0 : (i 0).val < 10000 := (i 0).isLt
  have hi1 : (i 1).val < 256 := (i 1).isLt
  obtain ⟨t, ht⟩ : ∃ t : Fin cfg0.N, t.val = (i 0).val / 200 :=
    ⟨⟨(i 0).val / 200, lt_of_lt_of_eq (by omega : (i 0).val / 200 < 50) N_0.symm⟩, rfl⟩
  obtain ⟨-, -, -, -, -, -, e6, e7⟩ := idx_facts t
  refine ⟨t, flush0_3 t, ?_⟩
  rw [mem_blk]
  intro a
  match a with
  | ⟨0, _⟩ =>
    show win0_3.index t (0 : Fin 2) * 200 ≤ (i 0).val ∧ (i 0).val < win0_3.index t (0 : Fin 2) * 200 + 200
    omega
  | ⟨1, _⟩ =>
    show win0_3.index t (1 : Fin 2) * 256 ≤ (i 1).val ∧ (i 1).val < win0_3.index t (1 : Fin 2) * 256 + 256
    omega

/-- THE OUTPUT ARRAY after the run: A₁·X and A₂·X side by side. -/
theorem final (c : Dev nD) :
    (dats m 0 c).arrAt 3 cfg0.N = sideBySide (w := 256) (A1 m c) (A2 m c) (X m c) :=
  (dats m 0 c).arrAt_eq_of_cover 3 _ (fun t _ => flushed_eq m c t) cover

/-- The kernel's run, read: every weakly fair execution ends with the result array at A₁·X and A₂·X side by side, the
    arguments as launched. -/
theorem run : θ_run defs (onTc (τ := τ) (main (F := Ideal))) ⟨m, fun _ => 0, ρ⟩ fun r => ∀ c : Dev nD,
      r.2.mem ((c : Thread nD τ).loc main_v0)
        = sideBySide (w := 256) (m ((c : Thread nD τ).loc main_arg1)) (m ((c : Thread nD τ).loc main_arg2))
            (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.Reference.lean ====
/-
  The reference's result as one function of its arguments.

  The reference multiplies each 10000×10000 adjacency matrix by the 10000×128 feature matrix on the host and joins the two
  10000×128 products along the column axis. Over the extended reals each product's entry is the plain sum over the
  contracted coordinate, so the joined array is the two products side by side.
-/
import proofs.«114327_g33217277067915_cont_8to1_b_760_15_alg».proof.Proof.Gen.ReferenceIdeal.Run
import proofs.«114327_g33217277067915_cont_8to1_b_760_15_alg».proof.Proof.LibSideBySide

noncomputable section

namespace Cert.ReferenceIdeal.RefValue

open Cert.ReferenceIdeal Cert.ReferenceIdeal.Gen Idealize.ShloMosaic SideBySide

/-- The reference's dimension numbers are the plain ones: rows of the left factor by columns of the right. -/
theorem dims_plain : dot_S10000x10000_S10000x128_S10000x128_1_0_0_1_n_n = DotDims.plain 10000 10000 128 := rfl

/-- The term the reference's run ends at is A₁·X and A₂·X side by side. -/
theorem result_eq (x : FVec Ideal S10000x128 .f32) (a1 a2 : FVec Ideal S10000x10000 .f32) :
    concatenate S10000x256 1
        [⟨S10000x128, Host.dotGeneral dot_S10000x10000_S10000x128_S10000x128_1_0_0_1_n_n none a1 x⟩,
         ⟨S10000x128, Host.dotGeneral dot_S10000x10000_S10000x128_S10000x128_1_0_0_1_n_n none a2 x⟩]
        concatenates_S10000x128_S10000x128_S10000x256_d1
      = sideBySide (w := 256) a1 a2 x :=
  concatenate_products _ dims_plain none a1 a2 x rfl _

end Cert.ReferenceIdeal.RefValue

end
-- ==== Proof.lean ====
/-
  A kernel that multiplies two dense 10000×10000 adjacency matrices A₁ and A₂ by one 10000×128 feature matrix X, 200 rows
  of each adjacency matrix at a grid step, and writes A₁·X into columns 0 … 127 and A₂·X into columns 128 … 255 of a
  10000×256 output — against the reference that forms both products on the host and concatenates them along the columns.

  Over the extended reals a change of float format is the identity and a matrix product's entry is the plain sum over the
  contracted coordinate of the factors' products, whether the matrix unit accumulates it into a zero block or the host
  computes it with no accumulator. So both programs end with ONE array, `SideBySide.sideBySide A₁ A₂ X`: the kernel block by
  block (a block of rows of a product is the product of that block of rows, and the 50 blocks tile the output), the
  reference by reading its concatenation at an index. Only commutativity and associativity of addition are used, which
  hold at the infinities too, so the precondition that the inputs are finite is never opened.

  The kernel's two frames are its frame certificates at the word-level and at the ideal values; the reference's is its run
  with the result dropped. The idealization rewrote no operation, so there is nothing to preserve.
-/
import proofs.«114327_g33217277067915_cont_8to1_b_760_15_alg».proof.Defs
import proofs.«114327_g33217277067915_cont_8to1_b_760_15_alg».proof.Proof.Gen.Kernel
import proofs.«114327_g33217277067915_cont_8to1_b_760_15_alg».proof.Proof.Gen.Kernel.Skeleton
import proofs.«114327_g33217277067915_cont_8to1_b_760_15_alg».proof.Proof.Gen.Kernel.Launch
import proofs.«114327_g33217277067915_cont_8to1_b_760_15_alg».proof.Proof.Gen.Kernel.Points
import proofs.«114327_g33217277067915_cont_8to1_b_760_15_alg».proof.Proof.Gen.Kernel.Frame
import proofs.«114327_g33217277067915_cont_8to1_b_760_15_alg».proof.Proof.Gen.KernelIdeal
import proofs.«114327_g33217277067915_cont_8to1_b_760_15_alg».proof.Proof.Gen.KernelIdeal.Skeleton
import proofs.«114327_g33217277067915_cont_8to1_b_760_15_alg».proof.Proof.Gen.KernelIdeal.Launch
import proofs.«114327_g33217277067915_cont_8to1_b_760_15_alg».proof.Proof.Gen.KernelIdeal.Points
import proofs.«114327_g33217277067915_cont_8to1_b_760_15_alg».proof.Proof.Gen.KernelIdeal.Frame
import proofs.«114327_g33217277067915_cont_8to1_b_760_15_alg».proof.Proof.Gen.ReferenceIdeal
import proofs.«114327_g33217277067915_cont_8to1_b_760_15_alg».proof.Proof.Gen.Pre_finite_inputs
import proofs.«114327_g33217277067915_cont_8to1_b_760_15_alg».proof.Proof.Whole
import proofs.«114327_g33217277067915_cont_8to1_b_760_15_alg».proof.Proof.Reference
import Idealize.ShloMosaic.Adequacy
import Idealize.ShloMosaic.Init

noncomputable section

namespace Cert.Proof

open Idealize.ShloMosaic Idealize.ShloMosaic.TcCoe Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on X, A₁ and A₂, the kernel's output array and the reference's result are both A₁·X and A₂·X
    side by side. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.result_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
